-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S64x128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 89
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1, .i32⟩
  | .hbm, ⟨58, _⟩ => ⟨S_, .i32⟩
  | .hbm, ⟨59, _⟩ => ⟨S1600000x1, .i32⟩
  | .hbm, ⟨60, _⟩ => ⟨S1600000x1, .i1⟩
  | .hbm, ⟨61, _⟩ => ⟨S1x1, .i32⟩
  | .hbm, ⟨62, _⟩ => ⟨S1600000x1, .i32⟩
  | .hbm, ⟨63, _⟩ => ⟨S1600000x1, .i1⟩
  | .hbm, ⟨64, _⟩ => ⟨S1600000x1, .i1⟩
  | .hbm, ⟨65, _⟩ => ⟨S_, .i1⟩
  | .hbm, ⟨66, _⟩ => ⟨S1600000, .i1⟩
  | .hbm, ⟨67, _⟩ => ⟨S1600000x128, .f32⟩
  | .hbm, ⟨68, _⟩ => ⟨S1600000x128, .i1⟩
  | .hbm, ⟨69, _⟩ => ⟨S_, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S_, .f32⟩
  | .hbm, ⟨77, _⟩ => ⟨S1600000, .f32⟩
  | .hbm, ⟨78, _⟩ => ⟨S_, .f32⟩
  | .hbm, ⟨79, _⟩ => ⟨S100000, .f32⟩
  | .hbm, ⟨80, _⟩ => ⟨S1600000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64x128, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_cst_1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v14 : Ref sig .tc := ⟨.hbm, 71, rfl⟩
abbrev main_cst_3 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst_4 : Ref sig .tc := ⟨.hbm, 76, rfl⟩
abbrev main_v18 : Ref sig .tc := ⟨.hbm, 77, rfl⟩
abbrev main_cst_5 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_6 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_1_0_0_n_n_wf : DotDims.WF S5000x128 S128x128 S5000x128 [1] [1] [0] [0] [] []
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x128, .f32⟩
  | .hbm, ⟨28, _⟩ => ⟨S1600000x128, .i1⟩
  | .hbm, ⟨29, _⟩ => ⟨S_, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S100000x128, .f32⟩
  | .hbm, ⟨50, _⟩ => ⟨S128x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1, .i32⟩
  | .hbm, ⟨68, _⟩ => ⟨S_, .i32⟩
  | .hbm, ⟨69, _⟩ => ⟨S1600000x1, .i32⟩
  | .hbm, ⟨70, _⟩ => ⟨S1600000x1, .i1⟩
  | .hbm, ⟨71, _⟩ => ⟨S1x1, .i32⟩
  | .hbm, ⟨72, _⟩ => ⟨S1600000x1, .i32⟩
  | .hbm, ⟨73, _⟩ => ⟨S1600000x1, .i1⟩
  | .hbm, ⟨74, _⟩ => ⟨S1600000x1, .i1⟩
  | .hbm, ⟨75, _⟩ => ⟨S_, .i1⟩
  | .hbm, ⟨76, _⟩ => ⟨S1600000, .i1⟩
  | .hbm, ⟨77, _⟩ => ⟨S1600000x128, .f32⟩
  | .hbm, ⟨78, _⟩ => ⟨S1600000x128, .i1⟩
  | .hbm, ⟨79, _⟩ => ⟨S_, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S_, .f32⟩
  | .hbm, ⟨87, _⟩ => ⟨S1600000, .f32⟩
  | .hbm, ⟨88, _⟩ => ⟨S_, .f32⟩
  | .hbm, ⟨89, _⟩ => ⟨S100000, .f32⟩
  | .hbm, ⟨90, _⟩ => ⟨S1600000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S128x64, .f32⟩
  | .hbm, ⟨99, _⟩ => ⟨S100000x64, .f32⟩
  | .hbm, ⟨100, _⟩ => ⟨S128x64, .f32⟩
  | .hbm, ⟨101, _⟩ => ⟨S100000x64, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_cst_1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call1_cst : Ref sig .tc := ⟨.hbm, 56, rfl⟩
abbrev main_call1_v0 : Ref sig .tc := ⟨.hbm, 57, rfl⟩
abbrev main_v21 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v22 : Ref sig .tc := ⟨.hbm, 81, rfl⟩
abbrev main_cst_3 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_cst_4 : Ref sig .tc := ⟨.hbm, 86, rfl⟩
abbrev main_v26 : Ref sig .tc := ⟨.hbm, 87, rfl⟩
abbrev main_cst_5 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst_6 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The two-layer mean-aggregation network over whole arrays.

  A graph of 100000 nodes and 1600000 edges; edge e runs from node src e to node dst e. One layer sends node
  features h (one row per node) to
      h · W_selfᵀ + mean_in(h) · W_neighᵀ + b,
  where row v of mean_in(h) is the sum of the rows h[src e] over the edges e with dst e = v, divided by the larger
  of the in-degree of v and one. The network is two such layers with the larger-of-zero between them.
  Everything here is a function of whole arrays, written in the operations a whole-array program uses.
-/
import proofs.«133627_j24584392802471_1_alg».proof.Proof.Gen.ReferenceIdeal

noncomputable section

namespace Cert.Sage

open Idealize.ShloMosaic Cert.ReferenceIdeal Cert.ReferenceIdeal.Facts₀

variable {F : FTy → Type} [FloatOps F]

/-- The edge sources as a column of row numbers into the node table: a negative number counts from the end. -/
def srcColumn (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Which edges have a source inside the node table. -/
def srcInRange (src : IVec S1600000 32) : IVec S1600000 1 :=
  Host.reduce IntOp.andi
    (andi (cmpi .sge (srcColumn src) (broadcastInDim S1600000x1 ![] bcast_S_S1600000x1 (constantI S_ 32 0#32)))
      (cmpi .sle (srcColumn src)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- One row per edge: the features of the edge's source node (a fill value where the source is outside the table). -/
def edgeRows (h : FVec F S100000x128 .f32) (src : IVec S1600000 32) : FVec F S1600000x128 .f32 :=
  select (broadcastInDim S1600000x128 ![0] bcast_S1600000_S1600000x128_0 (srcInRange src))
    (Host.gather gather_S100000x128_S1600000x1_S1600000x128_1_0_n_n_0_1_1128 h (srcColumn src))
    (broadcastInDim S1600000x128 ![] bcast_S_S1600000x128 (constant S_ .f32 0x7FC00000#32))

/-- Row v: the sum of the edge rows over the edges that end in v. -/
def neighbourSum (h : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (edgeRows h src)

/-- Entry v: the larger of one and the number of edges that end in v. -/
def degreeFloor (dst : IVec S1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- Row v: the mean of the features of the in-neighbours of v. -/
def meanAgg (h : FVec F S100000x128 .f32) (src dst : IVec S1600000 32) : FVec F S100000x128 .f32 :=
  Host.divf (neighbourSum h src dst)
    (broadcastInDim S100000x128 ![0, 1] bcast_S100000x1_S100000x128_0_1
      (broadcastInDim S100000x1 ![0] bcast_S100000_S100000x1_0 (degreeFloor (F := F) dst)))

/-- X · Wsᵀ + Hn · Wnᵀ + b with 128 output features. -/
def dense128 (X Hn : FVec F S100000x128 .f32) (Ws Wn : FVec F S128x128 .f32) (b : FVec F S128 .f32) :
    FVec F S100000x128 .f32 :=
  addf
    (addf
      (Host.dotGeneral dot_S100000x128_S128x128_S100000x128_1_0_0_1_n_n none X
        (transpose S128x128 [1, 0] Ws transposes_S128x128_S128x128_1_0))
      (Host.dotGeneral dot_S100000x128_S128x128_S100000x128_1_0_0_1_n_n none Hn
        (transpose S128x128 [1, 0] Wn transposes_S128x128_S128x128_1_0)))
    (broadcastInDim S100000x128 ![0, 1] bcast_S1x128_S100000x128_0_1 (broadcastInDim S1x128 ![1] bcast_S128_S1x128_1 b))

/-- The larger of each entry and zero. -/
def relu128 (Y : FVec F S100000x128 .f32) : FVec F S100000x128 .f32 :=
  maximumf Y (broadcastInDim S100000x128 ![] bcast_S_S100000x128 (constant S_ .f32 0x00000000#32))

/-- X · Wsᵀ + Hn · Wnᵀ + b with 64 output features. -/
def dense64 (X Hn : FVec F S100000x128 .f32) (Ws Wn : FVec F S64x128 .f32) (b : FVec F S64 .f32) :
    FVec F S100000x64 .f32 :=
  addf
    (addf
      (Host.dotGeneral dot_S100000x128_S128x64_S100000x64_1_0_0_1_n_n none X
        (transpose S128x64 [1, 0] Ws transposes_S64x128_S128x64_1_0))
      (Host.dotGeneral dot_S100000x128_S128x64_S100000x64_1_0_0_1_n_n none Hn
        (transpose S128x64 [1, 0] Wn transposes_S64x128_S128x64_1_0)))
    (broadcastInDim S100000x64 ![0, 1] bcast_S1x64_S100000x64_0_1 (broadcastInDim S1x64 ![1] bcast_S64_S1x64_1 b))

/-- The hidden features: the first layer, then the larger-of-zero. -/
def hidden (x : FVec F S100000x128 .f32) (src dst : IVec S1600000 32) (W1s W1n : FVec F S128x128 .f32)
    (b1 : FVec F S128 .f32) : FVec F S100000x128 .f32 :=
  relu128 (dense128 x (meanAgg x src dst) W1s W1n b1)

/-- The whole network. -/
def net (x : FVec F S100000x128 .f32) (src dst : IVec S1600000 32) (W1s W1n : FVec F S128x128 .f32)
    (b1 : FVec F S128 .f32) (W2s W2n : FVec F S64x128 .f32) (b2 : FVec F S64 .f32) : FVec F S100000x64 .f32 :=
  dense64 (hidden x src dst W1s W1n b1) (meanAgg (hidden x src dst W1s W1n b1) src dst) W2s W2n b2

end Cert.Sage

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.RegionValue.lean ====
/-
  What each of the two tiled regions leaves in its output array, as a whole-array layer of the arrays it found.
-/
import proofs.«133627_j24584392802471_1_alg».proof.Proof.Spec
import proofs.«133627_j24584392802471_1_alg».proof.Proof.LibRowLayers
import proofs.«133627_j24584392802471_1_alg».proof.Proof.Gen.KernelIdeal.Frame

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx RowLayers

/-! ## The contraction patterns, named: the tiled products contract both operands on their last axis, the whole-array products are plain -/

theorem dotTile128 : Cert.KernelIdeal.dot_S5000x128_S128x128_S5000x128_1_1_0_0_n_n = DotDims.transposedRhs 5000 128 128 := rfl
theorem dotTile64 : Cert.KernelIdeal.dot_S5000x128_S64x128_S5000x64_1_1_0_0_n_n = DotDims.transposedRhs 5000 128 64 := rfl
theorem dotWhole128 : Cert.ReferenceIdeal.dot_S100000x128_S128x128_S100000x128_1_0_0_1_n_n = DotDims.plain 100000 128 128 := rfl
theorem dotWhole64 : Cert.ReferenceIdeal.dot_S100000x128_S128x64_S100000x64_1_0_0_1_n_n = DotDims.plain 100000 128 64 := rfl

/-! ## Two more row-wise layers -/

section RowsLemmas

variable {mb M k n : ℕ} {σ : Fin mb → Fin M}

/-- The product alone: the tiled product with the weight matrix contracted on its last axis against the host's plain
    product with the transposed weight matrix. Entry (p, c) of either is the sum over j of x(p, j) · w(c, j). -/
theorem Rows.matmulT (h16 : FTy.bf16.bits < FTy.f32.bits)
    (htr : (⟨2, ![n, k]⟩ : Shape).Transposes [1, 0] ⟨2, ![k, n]⟩)
    {x : FVec Ideal ⟨2, ![mb, k]⟩ .f32} {X : FVec Ideal ⟨2, ![M, k]⟩ .f32} (hx : Rows σ x X)
    (w : FVec Ideal ⟨2, ![n, k]⟩ .f32) :
    Rows σ
      (matmul (DotDims.transposedRhs mb k n) none (Idealize.ShloMosaic.truncf .bf16 x h16) (Idealize.ShloMosaic.truncf .bf16 w h16)
        (constant ⟨2, ![mb, n]⟩ .f32 0x00000000#32))
      (Host.dotGeneral (DotDims.plain M k n) none X (transpose ⟨2, ![k, n]⟩ [1, 0] w htr)) := fun p c => by
  rw [matmulT_apply, StackMember.dotGeneral_plain_apply]
  refine Finset.sum_congr rfl fun j _ => ?_
  rw [transpose_ix2_apply]
  show x (ix2 p j) * w (ix2 c j) = X (ix2 (σ p) j) * w (ix2 c j)
  rw [hx p j]

/-- The bias vector as one row repeated down the block against the bias vector broadcast twice over the whole matrix:
    entry (p, c) of either is b(c). -/
theorem Rows.bias (hsc : (⟨1, ![n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1]) (b : FVec Ideal ⟨1, ![n]⟩ .f32) :
    Rows σ (broadcastTo ⟨2, ![mb, n]⟩ (shapeCast ⟨2, ![1, n]⟩ b hsc) hbc)
      (broadcastInDim ⟨2, ![M, n]⟩ ![0, 1] h01 (broadcastInDim ⟨2, ![1, n]⟩ ![1] h1 b)) := fun p c => by
  rw [biasRow_apply, rowDown_apply, rowBroadcast_apply]

end RowsLemmas

/-! ## The bodies' payloads, row by row -/

/-- The first region's payload of a block of rows is the same rows of the 128-feature layer and the larger-of-zero. -/
theorem pay0_rows {σ : Fin 5000 → Fin 100000} (x0 x1 : Vec Ideal S5000x128 .f32) (X Hn : FVec Ideal S100000x128 .f32)
    (Ws Wn : Vec Ideal S128x128 .f32) (b : Vec Ideal S128 .f32) (h0 : Rows σ x0 X) (h1 : Rows σ x1 Hn) :
    Rows σ (k0_pay1 (F := Ideal) x0 x1 Ws Wn b) (Cert.Sage.relu128 (F := Ideal) (Cert.Sage.dense128 (F := Ideal) X Hn Ws Wn b)) := by
  unfold k0_pay1 Cert.Sage.relu128 Cert.Sage.dense128
  rw [dotTile128, dotWhole128, shapeCast_self]
  exact Rows.relu _ (Rows.addf (Rows.addf (Rows.matmulT _ _ h0 Ws) (Rows.matmulT _ _ h1 Wn)) (Rows.bias _ _ _ _ b))

/-- The second region's payload of a block of rows is the same rows of the 64-feature layer. -/
theorem pay1_rows {σ : Fin 5000 → Fin 100000} (x0 x1 : Vec Ideal S5000x128 .f32) (X Hn : FVec Ideal S100000x128 .f32)
    (Ws Wn : Vec Ideal S64x128 .f32) (b : Vec Ideal S64 .f32) (h0 : Rows σ x0 X) (h1 : Rows σ x1 Hn) :
    Rows σ (k1_pay1 (F := Ideal) x0 x1 Ws Wn b) (Cert.Sage.dense64 (F := Ideal) X Hn Ws Wn b) := by
  unfold k1_pay1 Cert.Sage.dense64
  rw [dotTile64, dotWhole64, shapeCast_self, shapeCast_self]
  exact Rows.addf (Rows.addf (Rows.matmulT _ _ h0 Ws) (Rows.matmulT _ _ h1 Wn)) (Rows.bias _ _ _ _ b)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The first region -/

/-- The block indices at grid point t, decided over the grid: the two row-blocked inputs and the output sit at block
    (t, 0), the weight matrices and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the block at grid point t is row 5000·t + p of the array. -/
def rowOf0 (t : Fin cfg0.N) (p : Fin 5000) : Fin 100000 :=
  ⟨5000 * t.val + p.val, by have := t.isLt; have : cfg0.N = 20 := N_0; have := p.isLt; omega⟩

/-- The node-feature block at grid point t is rows 5000·t … 5000·t + 4999 of the node features. -/
theorem rows0_0 (c : Dev nD) (t : Fin cfg0.N) :
    Rows (rowOf0 t) (iblk0 (F := Ideal) V c 0 t : Vec Ideal S5000x128 .f32) (V c main_arg0 : FVec Ideal S100000x128 .f32) := fun p q => by
  obtain ⟨e0, e1, -⟩ := idx0 t
  unfold iblk0
  show V c main_arg0 (((cfg0.win 0).blk t).view.emb (ix2 p q)) = V c main_arg0 (ix2 (rowOf0 t p) q)
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * q.val = q.val; omega

/-- The neighbour-mean block at grid point t is the same rows of the neighbour means. -/
theorem rows0_1 (c : Dev nD) (t : Fin cfg0.N) :
    Rows (rowOf0 t) (iblk0 (F := Ideal) V c 1 t : Vec Ideal S5000x128 .f32) (V c main_v12 : FVec Ideal S100000x128 .f32) := fun p q => by
  obtain ⟨-, -, e0, e1, -⟩ := idx0 t
  unfold iblk0
  show V c main_v12 (((cfg0.win 1).blk t).view.emb (ix2 p q)) = V c main_v12 (ix2 (rowOf0 t p) q)
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * q.val = q.val; omega

/-- The two weight blocks and the bias block at any grid point are the whole arrays. -/
theorem whole0_2 (c : Dev nD) (t : Fin cfg0.N) : (iblk0 (F := Ideal) V c 2 t : Vec Ideal S128x128 .f32) = V c main_arg3 := by
  obtain ⟨-, -, -, -, e0, e1, -⟩ := idx0 t
  funext j
  unfold iblk0
  show V c main_arg3 (((cfg0.win 2).blk t).view.emb j) = V c main_arg3 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem whole0_3 (c : Dev nD) (t : Fin cfg0.N) : (iblk0 (F := Ideal) V c 3 t : Vec Ideal S128x128 .f32) = V c main_arg4 := by
  obtain ⟨-, -, -, -, -, -, e0, e1, -⟩ := idx0 t
  funext j
  unfold iblk0
  show V c main_arg4 (((cfg0.win 3).blk t).view.emb j) = V c main_arg4 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem whole0_4 (c : Dev nD) (t : Fin cfg0.N) : (iblk0 (F := Ideal) V c 4 t : Vec Ideal S128 .f32) = V c main_arg5 := by
  obtain ⟨-, -, -, -, -, -, -, -, e0, -⟩ := idx0 t
  funext j
  unfold iblk0
  show V c main_arg5 (((cfg0.win 4).blk t).view.emb j) = V c main_arg5 j
  refine congrArg _ (funext fun a => Fin.ext ?_)
  match a with
  | ⟨0, _⟩ => show win0_4.index t (0 : Fin 1) * 128 + 1 * (j 0).val = (j 0).val; omega

/-- The layer the first region computes, of the arrays as it finds them. -/
abbrev layer0 (c : Dev nD) : FVec Ideal S100000x128 .f32 :=
  Cert.Sage.relu128 (F := Ideal) (Cert.Sage.dense128 (F := Ideal) (V c main_arg0) (V c main_v12) (V c main_arg3) (V c main_arg4) (V c main_arg5))

/-- What grid point t writes back is block t of the layer. -/
theorem flushed0 (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S128) hz1]
  rw [whole0_2, whole0_3, whole0_4]
  obtain ⟨-, -, -, -, -, -, -, -, -, e0, e1⟩ := idx0 t
  funext j
  obtain ⟨p, q, rfl⟩ : ∃ (p : Fin 5000) (q : Fin 128), j = ix2 p q := ⟨j 0, j 1, eq_ix2 j⟩
  have key := pay0_rows (σ := rowOf0 t) (iblk0 (F := Ideal) V c 0 t) (iblk0 (F := Ideal) V c 1 t) (V c main_arg0) (V c main_v12)
    (V c main_arg3) (V c main_arg4) (V c main_arg5) (rows0_0 V c t) (rows0_1 V c t) p q
  refine key.trans ?_
  show layer0 V c (ix2 (rowOf0 t p) q) = layer0 V c (((cfg0.win 5).blk t).view.emb (ix2 p q))
  refine congrArg _ (funext fun a => Fin.ext ?_)
  match a with
  | ⟨0, _⟩ => show 5000 * t.val + p.val = win0_5.index t (0 : Fin 2) * 5000 + 1 * p.val; omega
  | ⟨1, _⟩ => show q.val = win0_5.index t (1 : Fin 2) * 128 + 1 * q.val; omega

/-- An index of the array is in grid point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v13).slice (win0_5.rect t)).set ↔ _
  rw [View.set_slice_whole, Rect.mem_set_unit]
  exact Iff.rfl

/-- Every index of the array is in the block of the grid point its row number divided by 5000 names. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, e0, e1⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The second region -/

/-- The block indices at grid point t, decided over the grid: the two row-blocked inputs and the output sit at block
    (t, 0), the weight matrices and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the block at grid point t is row 5000·t + p of the array. -/
def rowOf1 (t : Fin cfg1.N) (p : Fin 5000) : Fin 100000 :=
  ⟨5000 * t.val + p.val, by have := t.isLt; have : cfg1.N = 20 := N_1; have := p.isLt; omega⟩

/-- The hidden-feature block at grid point t is rows 5000·t … 5000·t + 4999 of the hidden features. -/
theorem rows1_0 (c : Dev nD) (t : Fin cfg1.N) :
    Rows (rowOf1 t) (iblk1 (F := Ideal) V c 0 t : Vec Ideal S5000x128 .f32) (V c main_v13 : FVec Ideal S100000x128 .f32) := fun p q => by
  obtain ⟨e0, e1, -⟩ := idx1 t
  unfold iblk1
  show V c main_v13 (((cfg1.win 0).blk t).view.emb (ix2 p q)) = V c main_v13 (ix2 (rowOf1 t p) q)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

/-- The neighbour-mean block at grid point t is the same rows of the neighbour means. -/
theorem rows1_1 (c : Dev nD) (t : Fin cfg1.N) :
    Rows (rowOf1 t) (iblk1 (F := Ideal) V c 1 t : Vec Ideal S5000x128 .f32) (V c main_v26 : FVec Ideal S100000x128 .f32) := fun p q => by
  obtain ⟨-, -, e0, e1, -⟩ := idx1 t
  unfold iblk1
  show V c main_v26 (((cfg1.win 1).blk t).view.emb (ix2 p q)) = V c main_v26 (ix2 (rowOf1 t p) q)
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * q.val = q.val; omega

/-- The two weight blocks and the bias block at any grid point are the whole arrays. -/
theorem whole1_2 (c : Dev nD) (t : Fin cfg1.N) : (iblk1 (F := Ideal) V c 2 t : Vec Ideal S64x128 .f32) = V c main_arg6 := by
  obtain ⟨-, -, -, -, e0, e1, -⟩ := idx1 t
  funext j
  unfold iblk1
  show V c main_arg6 (((cfg1.win 2).blk t).view.emb j) = V c main_arg6 j
  refine congrArg _ (funext fun a => Fin.ext ?_)
  match a with
  | ⟨0, _⟩ => show win1_2.index t (0 : Fin 2) * 64 + 1 * (j 0).val = (j 0).val; omega
  | ⟨1, _⟩ => show win1_2.index t (1 : Fin 2) * 128 + 1 * (j 1).val = (j 1).val; omega

theorem whole1_3 (c : Dev nD) (t : Fin cfg1.N) : (iblk1 (F := Ideal) V c 3 t : Vec Ideal S64x128 .f32) = V c main_arg7 := by
  obtain ⟨-, -, -, -, -, -, e0, e1, -⟩ := idx1 t
  funext j
  unfold iblk1
  show V c main_arg7 (((cfg1.win 3).blk t).view.emb j) = V c main_arg7 j
  refine congrArg _ (funext fun a => Fin.ext ?_)
  match a with
  | ⟨0, _⟩ => show win1_3.index t (0 : Fin 2) * 64 + 1 * (j 0).val = (j 0).val; omega
  | ⟨1, _⟩ => show win1_3.index t (1 : Fin 2) * 128 + 1 * (j 1).val = (j 1).val; omega

theorem whole1_4 (c : Dev nD) (t : Fin cfg1.N) : (iblk1 (F := Ideal) V c 4 t : Vec Ideal S64 .f32) = V c main_arg8 := by
  obtain ⟨-, -, -, -, -, -, -, -, e0, -⟩ := idx1 t
  funext j
  unfold iblk1
  show V c main_arg8 (((cfg1.win 4).blk t).view.emb j) = V c main_arg8 j
  refine congrArg _ (funext fun a => Fin.ext ?_)
  match a with
  | ⟨0, _⟩ => show win1_4.index t (0 : Fin 1) * 64 + 1 * (j 0).val = (j 0).val; omega

/-- The layer the second region computes, of the arrays as it finds them. -/
abbrev layer1 (c : Dev nD) : FVec Ideal S100000x64 .f32 :=
  Cert.Sage.dense64 (F := Ideal) (V c main_v13) (V c main_v26) (V c main_arg6) (V c main_arg7) (V c main_arg8)

/-- What grid point t writes back is block t of the layer. -/
theorem flushed1 (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S64x128) hz, View.ld_unit_zero (S := S64) hz1]
  rw [whole1_2, whole1_3, whole1_4]
  obtain ⟨-, -, -, -, -, -, -, -, -, e0, e1⟩ := idx1 t
  funext j
  obtain ⟨p, q, rfl⟩ : ∃ (p : Fin 5000) (q : Fin 64), j = ix2 p q := ⟨j 0, j 1, eq_ix2 j⟩
  have key := pay1_rows (σ := rowOf1 t) (iblk1 (F := Ideal) V c 0 t) (iblk1 (F := Ideal) V c 1 t) (V c main_v13) (V c main_v26)
    (V c main_arg6) (V c main_arg7) (V c main_arg8) (rows1_0 V c t) (rows1_1 V c t) p q
  refine key.trans ?_
  show layer1 V c (ix2 (rowOf1 t p) q) = layer1 V c (((cfg1.win 5).blk t).view.emb (ix2 p q))
  refine congrArg _ (funext fun a => Fin.ext ?_)
  match a with
  | ⟨0, _⟩ => show 5000 * t.val + p.val = win1_5.index t (0 : Fin 2) * 5000 + 1 * p.val; omega
  | ⟨1, _⟩ => show q.val = win1_5.index t (1 : Fin 2) * 64 + 1 * q.val; omega

/-- An index of the array is in grid point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- Every index of the array is in the block of the grid point its row number divided by 5000 names. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The first region: the 128-feature layer and the larger-of-zero, of the node features, the neighbour means, the
    two weight matrices and the bias as the region found them. -/
theorem region0 (c : Dev nD) :
    (dat0 (F := Ideal) V c).arrAt 5 cfg0.N
      = Cert.Sage.relu128 (F := Ideal) (Cert.Sage.dense128 (F := Ideal) (V c main_arg0) (V c main_v12) (V c main_arg3) (V c main_arg4) (V c main_arg5)) := by
  exact (dat0 (F := Ideal) V c).arrAt_eq_of_cover 5 (layer0 V c) (fun t _ => flushed0 V c t) cover0

/-- The second region: the 64-feature layer of the hidden features and their neighbour means. -/
theorem region1 (c : Dev nD) :
    (dat1 (F := Ideal) V c).arrAt 5 cfg1.N
      = Cert.Sage.dense64 (F := Ideal) (V c main_v13) (V c main_v26) (V c main_arg6) (V c main_arg7) (V c main_arg8) := by
  exact (dat1 (F := Ideal) V c).arrAt_eq_of_cover 5 (layer1 V c) (fun t _ => flushed1 V c t) cover1

end Cert.KernelIdeal.RegionValue

end
-- ==== Proof.HostFold.lean ====
/-
  The tiled program's whole-array stretches: what each region finds in the arrays it reads.
-/
import proofs.«133627_j24584392802471_1_alg».proof.Proof.Spec
import proofs.«133627_j24584392802471_1_alg».proof.Proof.Gen.KernelIdeal.Frame
import Idealize.ShloMosaic.Lib.StableHlo.Run

noncomputable section

namespace Cert.KernelIdeal.HostFold

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The two programs' gather and scatter descriptions are the same records -/

theorem gather_eq :
    Cert.KernelIdeal.gather_S100000x128_S1600000x1_S1600000x128_1_0_n_n_0_1_1128
      = Cert.ReferenceIdeal.gather_S100000x128_S1600000x1_S1600000x128_1_0_n_n_0_1_1128 := rfl
theorem scatterRows_eq :
    Cert.KernelIdeal.scatter_S100000x128_S1600000x1_S1600000x128_1_0_0_1
      = Cert.ReferenceIdeal.scatter_S100000x128_S1600000x1_S1600000x128_1_0_0_1 := rfl
theorem scatterCount_eq :
    Cert.KernelIdeal.scatter_S100000_S1600000x1_S1600000_n_0_0_1
      = Cert.ReferenceIdeal.scatter_S100000_S1600000x1_S1600000_n_0_0_1 := rfl

/-! ## A value stored at an array's own type and read back at it is the value -/

theorem ofBuf_toBuf {T : BufTy} (x : TRef sig T) (v : T.Contents (Elt F)) : x.ofBuf (x.toBuf v) = v := by
  unfold TRef.ofBuf TRef.toBuf
  rw [cast_cast, cast_eq]

theorem ofBuf_arg0 (V : Valuation τ sig (Elt F)) (h1 h2 h3) :
    (TRef.of (T := ⟨S100000x128, .f32⟩) main_arg0 h1 h2 h3).ofBuf (V (Proc.devRef .tc main_arg0))
      = V (Proc.devRef .tc main_arg0) := rfl
theorem ofBuf_arg1 (V : Valuation τ sig (Elt F)) (h1 h2 h3) :
    (TRef.of (T := ⟨S1600000, .i32⟩) main_arg1 h1 h2 h3).ofBuf (V (Proc.devRef .tc main_arg1))
      = V (Proc.devRef .tc main_arg1) := rfl
theorem ofBuf_v13 (V : Valuation τ sig (Elt F)) (h1 h2 h3) :
    (TRef.of (T := ⟨S100000x128, .f32⟩) main_v13 h1 h2 h3).ofBuf (V (Proc.devRef .tc main_v13))
      = V (Proc.devRef .tc main_v13) := rfl
theorem toBuf_v0 (v : FVec F S1600000x128 .f32) (h1 h2 h3) :
    (TRef.of (T := ⟨S1600000x128, .f32⟩) main_v0 h1 h2 h3).toBuf (Val := Elt F) v = v := rfl
theorem toBuf_v14 (v : FVec F S1600000x128 .f32) (h1 h2 h3) :
    (TRef.of (T := ⟨S1600000x128, .f32⟩) main_v14 h1 h2 h3).toBuf (Val := Elt F) v = v := rfl

/-! ## The two stretches before a region compute the neighbour means, from any contents -/

/-- The stretches before the first region leave in its second array the neighbour means of what the first
    argument held. -/
theorem agg0 (V : Valuation τ sig (Elt F)) :
    StableHlo.after hostOps0_1 (StableHlo.after hostOps0 V) (Proc.devRef .tc main_v12)
      = Cert.Sage.meanAgg (V (Proc.devRef .tc main_arg0)) (V (Proc.devRef .tc main_arg1))
          (V (Proc.devRef .tc main_arg2)) := by
  after_results_simp
  simp only [ofBuf_toBuf, ofBuf_arg0, ofBuf_arg1, toBuf_v0]
  unfold Cert.Sage.meanAgg Cert.Sage.neighbourSum Cert.Sage.degreeFloor Cert.Sage.edgeRows Cert.Sage.srcInRange
    Cert.Sage.srcColumn
  rw [gather_eq, scatterRows_eq, scatterCount_eq]

/-- The stretches before the second region leave in its second array the neighbour means of what the first
    region's output array held. -/
theorem agg1 (V : Valuation τ sig (Elt F)) :
    StableHlo.after hostOps1_1 (StableHlo.after hostOps1 V) (Proc.devRef .tc main_v26)
      = Cert.Sage.meanAgg (V (Proc.devRef .tc main_v13)) (V (Proc.devRef .tc main_arg1))
          (V (Proc.devRef .tc main_arg2)) := by
  after_results_simp
  simp only [ofBuf_toBuf, ofBuf_v13, ofBuf_arg1, toBuf_v14]
  unfold Cert.Sage.meanAgg Cert.Sage.neighbourSum Cert.Sage.degreeFloor Cert.Sage.edgeRows Cert.Sage.srcInRange
    Cert.Sage.srcColumn
  rw [gather_eq, scatterRows_eq, scatterCount_eq]

/-- No operation of a stretch writes the array: the stretch leaves it as it was. -/
local macro "unwritten" : tactic =>
  `(tactic| (
    refine StableHlo.after_of_forall_not_mem _ _ (List.forall_iff_forall_mem.mp ?_)
    simp only [hostOps0, hostOps0_1, hostOps1, hostOps1_1, List.flatten_cons, List.flatten_nil, List.append_nil,
      List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))

/-! ## What the first region finds -/

theorem V2_arg0 (c : Dev nD) : V2 m ρ c main_arg0 = m ((c : Thread nD τ).loc main_arg0) :=
  calc V2 m ρ c main_arg0
    _ = W1 m ρ c (Proc.devRef .tc main_arg0) := by unwritten
    _ = W0 m ρ c (Proc.devRef .tc main_arg0) := by unwritten
    _ = m ((c : Thread nD τ).loc main_arg0) := rfl
theorem V2_arg3 (c : Dev nD) : V2 m ρ c main_arg3 = m ((c : Thread nD τ).loc main_arg3) :=
  calc V2 m ρ c main_arg3
    _ = W1 m ρ c (Proc.devRef .tc main_arg3) := by unwritten
    _ = W0 m ρ c (Proc.devRef .tc main_arg3) := by unwritten
    _ = m ((c : Thread nD τ).loc main_arg3) := rfl
theorem V2_arg4 (c : Dev nD) : V2 m ρ c main_arg4 = m ((c : Thread nD τ).loc main_arg4) :=
  calc V2 m ρ c main_arg4
    _ = W1 m ρ c (Proc.devRef .tc main_arg4) := by unwritten
    _ = W0 m ρ c (Proc.devRef .tc main_arg4) := by unwritten
    _ = m ((c : Thread nD τ).loc main_arg4) := rfl
theorem V2_arg5 (c : Dev nD) : V2 m ρ c main_arg5 = m ((c : Thread nD τ).loc main_arg5) :=
  calc V2 m ρ c main_arg5
    _ = W1 m ρ c (Proc.devRef .tc main_arg5) := by unwritten
    _ = W0 m ρ c (Proc.devRef .tc main_arg5) := by unwritten
    _ = m ((c : Thread nD τ).loc main_arg5) := rfl

/-- The neighbour means of the node features. -/
theorem V2_v12 (c : Dev nD) :
    V2 m ρ c main_v12
      = Cert.Sage.meanAgg (m ((c : Thread nD τ).loc main_arg0)) (m ((c : Thread nD τ).loc main_arg1))
          (m ((c : Thread nD τ).loc main_arg2)) :=
  agg0 (W0 m ρ c)

/-! ## What the second region finds -/

/-- The hidden features: what the first region left. -/
theorem V5_v13 (c : Dev nD) : V5 m ρ c main_v13 = (dat0 (V2 m ρ) c).arrAt 5 cfg0.N :=
  calc V5 m ρ c main_v13
    _ = W4 m ρ c (Proc.devRef .tc main_v13) := by unwritten
    _ = W3 m ρ c (Proc.devRef .tc main_v13) := by unwritten
    _ = (dat0 (V2 m ρ) c).arrAt 5 cfg0.N := W3_arr m ρ c 5

/-- The first region and the stretches before it leave the edge sources as launched. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := by unwritten
    _ = W0 m ρ c (Proc.devRef .tc main_arg1) := by unwritten
    _ = m ((c : Thread nD τ).loc main_arg1) := rfl

/-- The first region and the stretches before it leave the edge targets as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by unwritten
    _ = W0 m ρ c (Proc.devRef .tc main_arg2) := by unwritten
    _ = m ((c : Thread nD τ).loc main_arg2) := rfl

/-- The neighbour means of the hidden features. -/
theorem V5_v26 (c : Dev nD) :
    V5 m ρ c main_v26
      = Cert.Sage.meanAgg ((dat0 (V2 m ρ) c).arrAt 5 cfg0.N) (m ((c : Thread nD τ).loc main_arg1))
          (m ((c : Thread nD τ).loc main_arg2)) :=
  (agg1 (W3 m ρ c)).trans (by rw [W3_arg1 m ρ c, W3_arg2 m ρ c, W3_arr m ρ c 5])

theorem V5_arg6 (c : Dev nD) : V5 m ρ c main_arg6 = m ((c : Thread nD τ).loc main_arg6) :=
  calc V5 m ρ c main_arg6
    _ = W4 m ρ c (Proc.devRef .tc main_arg6) := by unwritten
    _ = W3 m ρ c (Proc.devRef .tc main_arg6) := by unwritten
    _ = W2 m ρ c (Proc.devRef .tc main_arg6) := W3_of_ne m ρ c main_arg6 (by decide)
    _ = W1 m ρ c (Proc.devRef .tc main_arg6) := by unwritten
    _ = W0 m ρ c (Proc.devRef .tc main_arg6) := by unwritten
    _ = m ((c : Thread nD τ).loc main_arg6) := rfl
theorem V5_arg7 (c : Dev nD) : V5 m ρ c main_arg7 = m ((c : Thread nD τ).loc main_arg7) :=
  calc V5 m ρ c main_arg7
    _ = W4 m ρ c (Proc.devRef .tc main_arg7) := by unwritten
    _ = W3 m ρ c (Proc.devRef .tc main_arg7) := by unwritten
    _ = W2 m ρ c (Proc.devRef .tc main_arg7) := W3_of_ne m ρ c main_arg7 (by decide)
    _ = W1 m ρ c (Proc.devRef .tc main_arg7) := by unwritten
    _ = W0 m ρ c (Proc.devRef .tc main_arg7) := by unwritten
    _ = m ((c : Thread nD τ).loc main_arg7) := rfl
theorem V5_arg8 (c : Dev nD) : V5 m ρ c main_arg8 = m ((c : Thread nD τ).loc main_arg8) :=
  calc V5 m ρ c main_arg8
    _ = W4 m ρ c (Proc.devRef .tc main_arg8) := by unwritten
    _ = W3 m ρ c (Proc.devRef .tc main_arg8) := by unwritten
    _ = W2 m ρ c (Proc.devRef .tc main_arg8) := W3_of_ne m ρ c main_arg8 (by decide)
    _ = W1 m ρ c (Proc.devRef .tc main_arg8) := by unwritten
    _ = W0 m ρ c (Proc.devRef .tc main_arg8) := by unwritten
    _ = m ((c : Thread nD τ).loc main_arg8) := rfl

end Cert.KernelIdeal.HostFold

end
-- ==== Proof.RefOps.lean ====
/- The reference program's @main as ONE list of its 97 host operations in program order, each module-local function's
   operations standing at its call site over that call's buffers; and that every operation touches TensorCore buffers only. -/
import proofs.«133627_j24584392802471_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 97 operations, in order. -/
abbrev ops : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_arg1) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_arg1) main_call0.v2 main_call0.v3 addi,
    StableHlo.TRef.ternary main_call0.v1 main_call0.v3 (.of main_arg1) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select,
    StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.unary main_v10 main_v11 (broadcastInDim S100000x128 ![0, 1] bcast_S100000x1_S100000x128_0_1 : (⟨S100000x1, .f32⟩ : BufTy).Contents (Elt F) → (⟨S100000x128, .f32⟩ : BufTy).Contents (Elt F)),
    StableHlo.binary main_v3 main_v11 main_v12 (Host.divf : (⟨S100000x128, .f32⟩ : BufTy).Contents (Elt F) → (⟨S100000x128, .f32⟩ : BufTy).Contents (Elt F) → (⟨S100000x128, .f32⟩ : BufTy).Contents (Elt F)),
    StableHlo.unary main_arg3 main_v13 ((transpose S128x128 [1, 0] · transposes_S128x128_S128x128_1_0) : (⟨S128x128, .f32⟩ : BufTy).Contents (Elt F) → (⟨S128x128, .f32⟩ : BufTy).Contents (Elt F)),
    StableHlo.binary main_arg0 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v15 ((transpose S128x128 [1, 0] · transposes_S128x128_S128x128_1_0) : (⟨S128x128, .f32⟩ : BufTy).Contents (Elt F) → (⟨S128x128, .f32⟩ : BufTy).Contents (Elt F)),
    StableHlo.binary main_v12 main_v15 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.unary main_arg5 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v19 main_v20 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v20) main_call1.v0 main_call1.v1 maximumf,
    StableHlo.TRef.nullary main_call2.c (constantI S_ 32 0#32),
    StableHlo.TRef.unary main_call2.c main_call2.v0 (broadcastInDim S1600000 ![] bcast_S_S1600000),
    StableHlo.TRef.binary (.of main_arg1) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg1) main_call2.v2 main_call2.v3 addi,
    StableHlo.TRef.ternary main_call2.v1 main_call2.v3 (.of main_arg1) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v21) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select,
    StableHlo.nullary main_cst_3 (constant S_ .f32 0x00000000#32),
    StableHlo.unary main_cst_3 main_v23 (broadcastInDim S100000x128 ![] bcast_S_S100000x128 : (⟨S_, .f32⟩ : BufTy).Contents (Elt F) → (⟨S100000x128, .f32⟩ : BufTy).Contents (Elt F)),
    StableHlo.unary main_arg2 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v26 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v27 (broadcastInDim S100000 ![] bcast_S_S100000 : (⟨S_, .f32⟩ : BufTy).Contents (Elt F) → (⟨S100000, .f32⟩ : BufTy).Contents (Elt F)),
    StableHlo.unary main_arg2 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v30 (broadcastInDim S100000 ![] bcast_S_S100000 : (⟨S_, .f32⟩ : BufTy).Contents (Elt F) → (⟨S100000, .f32⟩ : BufTy).Contents (Elt F)),
    StableHlo.binary main_v29 main_v30 main_v31 (maximumf : (⟨S100000, .f32⟩ : BufTy).Contents (Elt F) → (⟨S100000, .f32⟩ : BufTy).Contents (Elt F) → (⟨S100000, .f32⟩ : BufTy).Contents (Elt F)),
    StableHlo.unary main_v31 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v33 main_v34 (Host.divf : (⟨S100000x128, .f32⟩ : BufTy).Contents (Elt F) → (⟨S100000x128, .f32⟩ : BufTy).Contents (Elt F) → (⟨S100000x128, .f32⟩ : BufTy).Contents (Elt F)),
    StableHlo.unary main_arg6 main_v35 ((transpose S128x64 [1, 0] · transposes_S64x128_S128x64_1_0) : (⟨S64x128, .f32⟩ : BufTy).Contents (Elt F) → (⟨S128x64, .f32⟩ : BufTy).Contents (Elt F)),
    StableHlo.binary main_v21 main_v35 main_v36 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v37 ((transpose S128x64 [1, 0] · transposes_S64x128_S128x64_1_0) : (⟨S64x128, .f32⟩ : BufTy).Contents (Elt F) → (⟨S128x64, .f32⟩ : BufTy).Contents (Elt F)),
    StableHlo.binary main_v34 main_v37 main_v38 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    StableHlo.unary main_arg8 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v41 main_v42 (addf : (⟨S100000x64, .f32⟩ : BufTy).Contents (Elt F) → (⟨S100000x64, .f32⟩ : BufTy).Contents (Elt F) → (⟨S100000x64, .f32⟩ : BufTy).Contents (Elt F)) ]

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩

/-- Stretch 0 of the list (23 operations): cut where a call made by @main itself starts or ends. -/
abbrev ops0 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_arg1) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_arg1) main_call0.v2 main_call0.v3 addi,
    StableHlo.TRef.ternary main_call0.v1 main_call0.v3 (.of main_arg1) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select ]

/-- Stretch 1 of the list (24 operations): cut where a call made by @main itself starts or ends. -/
abbrev ops1 : List (HloOp τ sig (Elt F)) :=
  [ StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.unary main_v10 main_v11 (broadcastInDim S100000x128 ![0, 1] bcast_S100000x1_S100000x128_0_1 : (⟨S100000x1, .f32⟩ : BufTy).Contents (Elt F) → (⟨S100000x128, .f32⟩ : BufTy).Contents (Elt F)),
    StableHlo.binary main_v3 main_v11 main_v12 (Host.divf : (⟨S100000x128, .f32⟩ : BufTy).Contents (Elt F) → (⟨S100000x128, .f32⟩ : BufTy).Contents (Elt F) → (⟨S100000x128, .f32⟩ : BufTy).Contents (Elt F)),
    StableHlo.unary main_arg3 main_v13 ((transpose S128x128 [1, 0] · transposes_S128x128_S128x128_1_0) : (⟨S128x128, .f32⟩ : BufTy).Contents (Elt F) → (⟨S128x128, .f32⟩ : BufTy).Contents (Elt F)),
    StableHlo.binary main_arg0 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v15 ((transpose S128x128 [1, 0] · transposes_S128x128_S128x128_1_0) : (⟨S128x128, .f32⟩ : BufTy).Contents (Elt F) → (⟨S128x128, .f32⟩ : BufTy).Contents (Elt F)),
    StableHlo.binary main_v12 main_v15 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.unary main_arg5 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v19 main_v20 (addf : (⟨S100000x128, .f32⟩ : BufTy).Contents (Elt F) → (⟨S100000x128, .f32⟩ : BufTy).Contents (Elt F) → (⟨S100000x128, .f32⟩ : BufTy).Contents (Elt F)) ]

/-- Stretch 2 of the list (3 operations): cut where a call made by @main itself starts or ends. -/
abbrev ops2 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v20) main_call1.v0 main_call1.v1 maximumf ]

/-- Stretch 3 of the list (23 operations): cut where a call made by @main itself starts or ends. -/
abbrev ops3 : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (.of main_arg1) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg1) main_call2.v2 main_call2.v3 addi,
    StableHlo.TRef.ternary main_call2.v1 main_call2.v3 (.of main_arg1) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v21) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select ]

/-- Stretch 4 of the list (24 operations): cut where a call made by @main itself starts or ends. -/
abbrev ops4 : List (HloOp τ sig (Elt F)) :=
  [ StableHlo.nullary main_cst_3 (constant S_ .f32 0x00000000#32),
    StableHlo.unary main_cst_3 main_v23 (broadcastInDim S100000x128 ![] bcast_S_S100000x128 : (⟨S_, .f32⟩ : BufTy).Contents (Elt F) → (⟨S100000x128, .f32⟩ : BufTy).Contents (Elt F)),
    StableHlo.unary main_arg2 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v26 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v27 (broadcastInDim S100000 ![] bcast_S_S100000 : (⟨S_, .f32⟩ : BufTy).Contents (Elt F) → (⟨S100000, .f32⟩ : BufTy).Contents (Elt F)),
    StableHlo.unary main_arg2 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v30 (broadcastInDim S100000 ![] bcast_S_S100000 : (⟨S_, .f32⟩ : BufTy).Contents (Elt F) → (⟨S100000, .f32⟩ : BufTy).Contents (Elt F)),
    StableHlo.binary main_v29 main_v30 main_v31 (maximumf : (⟨S100000, .f32⟩ : BufTy).Contents (Elt F) → (⟨S100000, .f32⟩ : BufTy).Contents (Elt F) → (⟨S100000, .f32⟩ : BufTy).Contents (Elt F)),
    StableHlo.unary main_v31 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v33 main_v34 (Host.divf : (⟨S100000x128, .f32⟩ : BufTy).Contents (Elt F) → (⟨S100000x128, .f32⟩ : BufTy).Contents (Elt F) → (⟨S100000x128, .f32⟩ : BufTy).Contents (Elt F)),
    StableHlo.unary main_arg6 main_v35 ((transpose S128x64 [1, 0] · transposes_S64x128_S128x64_1_0) : (⟨S64x128, .f32⟩ : BufTy).Contents (Elt F) → (⟨S128x64, .f32⟩ : BufTy).Contents (Elt F)),
    StableHlo.binary main_v21 main_v35 main_v36 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v37 ((transpose S128x64 [1, 0] · transposes_S64x128_S128x64_1_0) : (⟨S64x128, .f32⟩ : BufTy).Contents (Elt F) → (⟨S128x64, .f32⟩ : BufTy).Contents (Elt F)),
    StableHlo.binary main_v34 main_v37 main_v38 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    StableHlo.unary main_arg8 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v41 main_v42 (addf : (⟨S100000x64, .f32⟩ : BufTy).Contents (Elt F) → (⟨S100000x64, .f32⟩ : BufTy).Contents (Elt F) → (⟨S100000x64, .f32⟩ : BufTy).Contents (Elt F)) ]

/-- The list is its stretches laid end to end. -/
theorem ops_split : (ops : List (HloOp τ sig (Elt F))) = ops0 ++ (ops1 ++ (ops2 ++ (ops3 ++ (ops4)))) := rfl

end Cert.ReferenceIdeal.RefRun

end
-- ==== Proof.RefRun.lean ====
/-
  The whole-array program's run: every weakly fair execution ends, and its result is the network of Spec.lean applied
  to the argument arrays.

  @main is a straight line of 97 operations once the bodies of the functions it calls stand at their calls. The line is
  read in five stretches — the rows of the node features gathered by the edge sources; the mean over in-neighbours and
  the first dense layer; the larger-of-zero; the gather again on the hidden features; the mean and the second dense
  layer — each from ARBITRARY contents of the buffers, and the stretches are then put end to end.
-/
import proofs.«133627_j24584392802471_1_alg».proof.Proof.Spec
import proofs.«133627_j24584392802471_1_alg».proof.Proof.RefOps
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.Pipeline

variable {F : FTy → Type} [FloatOps F]

/-! ## @main as a straight line -/

/-- @main is its five stretches one after the other: a stretch ends where a call made by @main starts or ends, and
    unfolding the calls' bodies peels @main against them an operation at a time. -/
theorem main_stretches (c : Dev nD) :
    main (F := F) c = (seq ops0 >>= fun _ => seq ops1 >>= fun _ => seq ops2 >>= fun _ => seq ops3 >>= fun _ => seq ops4) := by
  chain_rfl

/-- @main is the straight line of its operations. -/
theorem main_eq (c : Dev nD) : main (F := F) c = seq ops := by
  rw [ops_split, seq_append, seq_append, seq_append, seq_append]
  exact main_stretches c

theorem scopedRefs_eq : (Finset.univ.filter fun b : Ref sig .tc => b.isScoped) = ∅ := by decide
theorem scopedSems_eq : (Finset.univ.filter fun sm : SemLoc sig => sm.isScoped .tc) = ∅ := by decide

/-- Every weakly fair execution ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## Putting stretches end to end -/

/-- The contents after two stretches are the second's from the first's. -/
theorem after_append (a b : List (HloOp τ sig (Elt F))) (V : Valuation τ sig (Elt F)) :
    after (a ++ b) V = after b (after a V) := by
  induction a generalizing V with
  | nil => rfl
  | cons op a ih => simp only [List.cons_append, after_cons, ih]

/-! ## A value stored at an array's own type and read back at it is the value -/

theorem ofBuf_toBuf {T : BufTy} (x : TRef sig T) (v : T.Contents (Elt F)) : x.ofBuf (x.toBuf v) = v := by
  unfold TRef.ofBuf TRef.toBuf
  rw [cast_cast, cast_eq]

theorem ofBuf_arg0 (V : Valuation τ sig (Elt F)) (h1 h2 h3) :
    (TRef.of (T := ⟨S100000x128, .f32⟩) main_arg0 h1 h2 h3).ofBuf (V (Proc.devRef .tc main_arg0))
      = V (Proc.devRef .tc main_arg0) := rfl
theorem ofBuf_arg1 (V : Valuation τ sig (Elt F)) (h1 h2 h3) :
    (TRef.of (T := ⟨S1600000, .i32⟩) main_arg1 h1 h2 h3).ofBuf (V (Proc.devRef .tc main_arg1))
      = V (Proc.devRef .tc main_arg1) := rfl
theorem ofBuf_v20 (V : Valuation τ sig (Elt F)) (h1 h2 h3) :
    (TRef.of (T := ⟨S100000x128, .f32⟩) main_v20 h1 h2 h3).ofBuf (V (Proc.devRef .tc main_v20))
      = V (Proc.devRef .tc main_v20) := rfl
theorem ofBuf_v21 (V : Valuation τ sig (Elt F)) (h1 h2 h3) :
    (TRef.of (T := ⟨S100000x128, .f32⟩) main_v21 h1 h2 h3).ofBuf (V (Proc.devRef .tc main_v21))
      = V (Proc.devRef .tc main_v21) := rfl
theorem toBuf_v0 (v : FVec F S1600000x128 .f32) (h1 h2 h3) :
    (TRef.of (T := ⟨S1600000x128, .f32⟩) main_v0 h1 h2 h3).toBuf (Val := Elt F) v = v := rfl
theorem toBuf_v21 (v : FVec F S100000x128 .f32) (h1 h2 h3) :
    (TRef.of (T := ⟨S100000x128, .f32⟩) main_v21 h1 h2 h3).toBuf (Val := Elt F) v = v := rfl
theorem toBuf_v22 (v : FVec F S1600000x128 .f32) (h1 h2 h3) :
    (TRef.of (T := ⟨S1600000x128, .f32⟩) main_v22 h1 h2 h3).toBuf (Val := Elt F) v = v := rfl

/-! ## The five stretches, each from arbitrary contents -/

/-- The mean over in-neighbours, from the edge rows already gathered. -/
def meanOfRows (rows : FVec F S1600000x128 .f32) (dst : IVec S1600000 32) : FVec F S100000x128 .f32 :=
  Host.divf
    (Host.scatterAdd scatter_S100000x128_S1600000x1_S1600000x128_1_0_0_1
      (broadcastInDim S100000x128 ![] Facts₀.bcast_S_S100000x128 (constant S_ .f32 0x00000000#32))
      (broadcastInDim S1600000x1 ![0] Facts₀.bcast_S1600000_S1600000x1_0 dst) rows)
    (broadcastInDim S100000x128 ![0, 1] Facts₀.bcast_S100000x1_S100000x128_0_1
      (broadcastInDim S100000x1 ![0] Facts₀.bcast_S100000_S100000x1_0 (Cert.Sage.degreeFloor (F := F) dst)))

theorem meanAgg_eq (h : FVec F S100000x128 .f32) (src dst : IVec S1600000 32) :
    Cert.Sage.meanAgg h src dst = meanOfRows (Cert.Sage.edgeRows h src) dst := rfl

/-- Stretch 0: the rows of the node features, one per edge, by the edge's source. -/
theorem take0_eq (V : Valuation τ sig (Elt F)) :
    after ops0 V (main_v0 : DevRef τ sig) = Cert.Sage.edgeRows (V (main_arg0 : DevRef τ sig)) (V (main_arg1 : DevRef τ sig)) := by
  after_results_simp
  simp only [ofBuf_toBuf, ofBuf_arg0, ofBuf_arg1, toBuf_v0]
  unfold Cert.Sage.edgeRows Cert.Sage.srcInRange Cert.Sage.srcColumn
  rfl

/-- Stretch 1: the mean over in-neighbours and the first dense layer. -/
theorem dense1_eq (V : Valuation τ sig (Elt F)) :
    after ops1 V (main_v20 : DevRef τ sig)
      = Cert.Sage.dense128 (V (main_arg0 : DevRef τ sig)) (meanOfRows (V (main_v0 : DevRef τ sig)) (V (main_arg2 : DevRef τ sig)))
          (V (main_arg3 : DevRef τ sig)) (V (main_arg4 : DevRef τ sig)) (V (main_arg5 : DevRef τ sig)) := by
  after_results_simp
  unfold Cert.Sage.dense128 meanOfRows Cert.Sage.degreeFloor
  rfl

/-- Stretch 2: the larger of each entry and zero. -/
theorem relu_eq (V : Valuation τ sig (Elt F)) :
    after ops2 V (main_v21 : DevRef τ sig) = Cert.Sage.relu128 (V (main_v20 : DevRef τ sig)) := by
  after_results_simp
  simp only [ofBuf_toBuf, ofBuf_v20, toBuf_v21]
  unfold Cert.Sage.relu128
  rfl

/-- Stretch 3: the rows of the hidden features, one per edge, by the edge's source. -/
theorem take1_eq (V : Valuation τ sig (Elt F)) :
    after ops3 V (main_v22 : DevRef τ sig) = Cert.Sage.edgeRows (V (main_v21 : DevRef τ sig)) (V (main_arg1 : DevRef τ sig)) := by
  after_results_simp
  simp only [ofBuf_toBuf, ofBuf_v21, ofBuf_arg1, toBuf_v22]
  unfold Cert.Sage.edgeRows Cert.Sage.srcInRange Cert.Sage.srcColumn
  rfl

/-- Stretch 4: the mean over in-neighbours of the hidden features and the second dense layer. -/
theorem dense2_eq (V : Valuation τ sig (Elt F)) :
    after ops4 V (main_v42 : DevRef τ sig)
      = Cert.Sage.dense64 (V (main_v21 : DevRef τ sig)) (meanOfRows (V (main_v22 : DevRef τ sig)) (V (main_arg2 : DevRef τ sig)))
          (V (main_arg6 : DevRef τ sig)) (V (main_arg7 : DevRef τ sig)) (V (main_arg8 : DevRef τ sig)) := by
  after_results_simp
  unfold Cert.Sage.dense64 meanOfRows Cert.Sage.degreeFloor
  rfl

/-! ## What a stretch does not write it leaves as it was -/

local macro "unwritten" : tactic =>
  `(tactic| (
    refine after_of_forall_not_mem _ _ (List.forall_iff_forall_mem.mp ?_)
    simp only [ops, ops0, ops1, ops2, ops3, ops4, List.Forall, nullary_writes, unary_writes, binary_writes, ternary_writes,
      Finset.mem_singleton]
    repeat' apply And.intro
    all_goals exact devRef_ne_of_ne (by decide)))

theorem keep0_arg0 (V : Valuation τ sig (Elt F)) : after ops0 V (main_arg0 : DevRef τ sig) = V (main_arg0 : DevRef τ sig) := by unwritten
theorem keep0_arg1 (V : Valuation τ sig (Elt F)) : after ops0 V (main_arg1 : DevRef τ sig) = V (main_arg1 : DevRef τ sig) := by unwritten
theorem keep0_arg2 (V : Valuation τ sig (Elt F)) : after ops0 V (main_arg2 : DevRef τ sig) = V (main_arg2 : DevRef τ sig) := by unwritten
theorem keep0_arg3 (V : Valuation τ sig (Elt F)) : after ops0 V (main_arg3 : DevRef τ sig) = V (main_arg3 : DevRef τ sig) := by unwritten
theorem keep0_arg4 (V : Valuation τ sig (Elt F)) : after ops0 V (main_arg4 : DevRef τ sig) = V (main_arg4 : DevRef τ sig) := by unwritten
theorem keep0_arg5 (V : Valuation τ sig (Elt F)) : after ops0 V (main_arg5 : DevRef τ sig) = V (main_arg5 : DevRef τ sig) := by unwritten
theorem keep0_arg6 (V : Valuation τ sig (Elt F)) : after ops0 V (main_arg6 : DevRef τ sig) = V (main_arg6 : DevRef τ sig) := by unwritten
theorem keep0_arg7 (V : Valuation τ sig (Elt F)) : after ops0 V (main_arg7 : DevRef τ sig) = V (main_arg7 : DevRef τ sig) := by unwritten
theorem keep0_arg8 (V : Valuation τ sig (Elt F)) : after ops0 V (main_arg8 : DevRef τ sig) = V (main_arg8 : DevRef τ sig) := by unwritten
theorem keep1_arg1 (V : Valuation τ sig (Elt F)) : after ops1 V (main_arg1 : DevRef τ sig) = V (main_arg1 : DevRef τ sig) := by unwritten
theorem keep1_arg2 (V : Valuation τ sig (Elt F)) : after ops1 V (main_arg2 : DevRef τ sig) = V (main_arg2 : DevRef τ sig) := by unwritten
theorem keep1_arg6 (V : Valuation τ sig (Elt F)) : after ops1 V (main_arg6 : DevRef τ sig) = V (main_arg6 : DevRef τ sig) := by unwritten
theorem keep1_arg7 (V : Valuation τ sig (Elt F)) : after ops1 V (main_arg7 : DevRef τ sig) = V (main_arg7 : DevRef τ sig) := by unwritten
theorem keep1_arg8 (V : Valuation τ sig (Elt F)) : after ops1 V (main_arg8 : DevRef τ sig) = V (main_arg8 : DevRef τ sig) := by unwritten
theorem keep2_arg1 (V : Valuation τ sig (Elt F)) : after ops2 V (main_arg1 : DevRef τ sig) = V (main_arg1 : DevRef τ sig) := by unwritten
theorem keep2_arg2 (V : Valuation τ sig (Elt F)) : after ops2 V (main_arg2 : DevRef τ sig) = V (main_arg2 : DevRef τ sig) := by unwritten
theorem keep2_arg6 (V : Valuation τ sig (Elt F)) : after ops2 V (main_arg6 : DevRef τ sig) = V (main_arg6 : DevRef τ sig) := by unwritten
theorem keep2_arg7 (V : Valuation τ sig (Elt F)) : after ops2 V (main_arg7 : DevRef τ sig) = V (main_arg7 : DevRef τ sig) := by unwritten
theorem keep2_arg8 (V : Valuation τ sig (Elt F)) : after ops2 V (main_arg8 : DevRef τ sig) = V (main_arg8 : DevRef τ sig) := by unwritten
theorem keep3_v21 (V : Valuation τ sig (Elt F)) : after ops3 V (main_v21 : DevRef τ sig) = V (main_v21 : DevRef τ sig) := by unwritten
theorem keep3_arg2 (V : Valuation τ sig (Elt F)) : after ops3 V (main_arg2 : DevRef τ sig) = V (main_arg2 : DevRef τ sig) := by unwritten
theorem keep3_arg6 (V : Valuation τ sig (Elt F)) : after ops3 V (main_arg6 : DevRef τ sig) = V (main_arg6 : DevRef τ sig) := by unwritten
theorem keep3_arg7 (V : Valuation τ sig (Elt F)) : after ops3 V (main_arg7 : DevRef τ sig) = V (main_arg7 : DevRef τ sig) := by unwritten
theorem keep3_arg8 (V : Valuation τ sig (Elt F)) : after ops3 V (main_arg8 : DevRef τ sig) = V (main_arg8 : DevRef τ sig) := by unwritten

theorem kept_arg0 (V : Valuation τ sig (Elt F)) : after ops V (main_arg0 : DevRef τ sig) = V (main_arg0 : DevRef τ sig) := by unwritten
theorem kept_arg1 (V : Valuation τ sig (Elt F)) : after ops V (main_arg1 : DevRef τ sig) = V (main_arg1 : DevRef τ sig) := by unwritten
theorem kept_arg2 (V : Valuation τ sig (Elt F)) : after ops V (main_arg2 : DevRef τ sig) = V (main_arg2 : DevRef τ sig) := by unwritten
theorem kept_arg3 (V : Valuation τ sig (Elt F)) : after ops V (main_arg3 : DevRef τ sig) = V (main_arg3 : DevRef τ sig) := by unwritten
theorem kept_arg4 (V : Valuation τ sig (Elt F)) : after ops V (main_arg4 : DevRef τ sig) = V (main_arg4 : DevRef τ sig) := by unwritten
theorem kept_arg5 (V : Valuation τ sig (Elt F)) : after ops V (main_arg5 : DevRef τ sig) = V (main_arg5 : DevRef τ sig) := by unwritten
theorem kept_arg6 (V : Valuation τ sig (Elt F)) : after ops V (main_arg6 : DevRef τ sig) = V (main_arg6 : DevRef τ sig) := by unwritten
theorem kept_arg7 (V : Valuation τ sig (Elt F)) : after ops V (main_arg7 : DevRef τ sig) = V (main_arg7 : DevRef τ sig) := by unwritten
theorem kept_arg8 (V : Valuation τ sig (Elt F)) : after ops V (main_arg8 : DevRef τ sig) = V (main_arg8 : DevRef τ sig) := by unwritten

/-! ## The whole line -/

/-- The result buffer after the whole line: the network of the argument arrays. -/
theorem out_eq (V : Valuation τ sig (Elt F)) :
    after ops V (main_v42 : DevRef τ sig) = Cert.Sage.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split, after_append, after_append, after_append, after_append]
  rw [dense2_eq, take1_eq, keep3_v21, keep3_arg2, keep3_arg6, keep3_arg7, keep3_arg8]
  rw [relu_eq, keep2_arg1, keep2_arg2, keep2_arg6, keep2_arg7, keep2_arg8]
  rw [dense1_eq, keep1_arg1, keep1_arg2, keep1_arg6, keep1_arg7, keep1_arg8]
  rw [take0_eq, keep0_arg0, keep0_arg1, keep0_arg2, keep0_arg3, keep0_arg4, keep0_arg5, keep0_arg6, keep0_arg7, keep0_arg8]
  unfold Cert.Sage.net Cert.Sage.hidden
  rw [meanAgg_eq, meanAgg_eq]

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = Cert.Sage.net (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v42).trans (out_eq (launchContents m c)),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _),
      (h c main_arg6).trans (kept_arg6 _), (h c main_arg7).trans (kept_arg7 _), (h c main_arg8).trans (kept_arg8 _)⟩)
    (run_main m ρ)

end Cert.ReferenceIdeal.RefRun

end
-- ==== Proof.lean ====
/-
  Two programs for a two-layer graph network with mean aggregation over 100000 nodes and 1600000 edges agree at the
  exact instance (floats read as extended reals).

  One layer sends node features h to  h · W_selfᵀ + mean_in(h) · W_neighᵀ + b,  where row v of mean_in(h) is the sum of
  h[src e] over the edges e ending in v, divided by the larger of v's in-degree and one; the network is two layers with
  the larger-of-zero between them (Spec.lean). Both programs gather, scatter-add and divide over whole arrays with the
  same operations in the same order. They differ in the dense part: the tiled program computes it 5000 rows at a time,
  each block of rows as a product with the weight matrix contracted on its last axis, the operands narrowed first (the
  identity on extended reals); the whole-array program transposes the weight matrix and takes one product. Row r of
  either result reads row r of the operands only, and both products are the same finite sum over the 128 features, so a
  block of the tiled result is the matching rows of the whole-array result (RegionValue.lean, over LibRowLayers.lean).
  No law that needs finite entries is used: sums and products of extended reals are only ever compared term by term.

  The tiled program's value is read off its run (KernelRun.lean) through the arrays each region finds (HostFold.lean);
  the whole-array program's run is RefRun.lean.
-/
import proofs.«133627_j24584392802471_1_alg».proof.Defs
import proofs.«133627_j24584392802471_1_alg».proof.Proof.Gen.Kernel
import proofs.«133627_j24584392802471_1_alg».proof.Proof.Gen.Kernel.Frame
import proofs.«133627_j24584392802471_1_alg».proof.Proof.Gen.KernelIdeal
import proofs.«133627_j24584392802471_1_alg».proof.Proof.Gen.KernelIdeal.Frame
import proofs.«133627_j24584392802471_1_alg».proof.Proof.Gen.ReferenceIdeal
import proofs.«133627_j24584392802471_1_alg».proof.Proof.Gen.Pre_finite_inputs
import proofs.«133627_j24584392802471_1_alg».proof.Proof.Spec
import proofs.«133627_j24584392802471_1_alg».proof.Proof.KernelRun
import proofs.«133627_j24584392802471_1_alg».proof.Proof.RegionValue
import proofs.«133627_j24584392802471_1_alg».proof.Proof.HostFold
import proofs.«133627_j24584392802471_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

section KernelValue

open Cert.KernelIdeal Cert.KernelIdeal.Gen

/-- The tiled program's result array ends at the network of its argument arrays: the second region's layer of what it
    finds, which is the first region's layer of what that one finds, the neighbour means in between. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W6 m ρ c (Proc.devRef .tc main_v27)
      = Cert.Sage.net (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) := by
  rw [show W6 m ρ c (Proc.devRef .tc main_v27) = (dat1 (V5 m ρ) c).arrAt 5 cfg1.N from W6_arr m ρ c 5]
  rw [Cert.KernelIdeal.RegionValue.region1 (V5 m ρ) c]
  rw [Cert.KernelIdeal.HostFold.V5_v13, Cert.KernelIdeal.HostFold.V5_v26, Cert.KernelIdeal.HostFold.V5_arg6,
    Cert.KernelIdeal.HostFold.V5_arg7, Cert.KernelIdeal.HostFold.V5_arg8]
  rw [Cert.KernelIdeal.RegionValue.region0 (V2 m ρ) c]
  rw [Cert.KernelIdeal.HostFold.V2_arg0, Cert.KernelIdeal.HostFold.V2_v12, Cert.KernelIdeal.HostFold.V2_arg3,
    Cert.KernelIdeal.HostFold.V2_arg4, Cert.KernelIdeal.HostFold.V2_arg5]
  rfl

end KernelValue

/-- Both runs end, with the network of the (agreeing) argument arrays in the result and the arguments unchanged. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono (fun _ h c => ⟨(h c).1.trans (kernel_value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
